-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x512 .f32) (main_arg8 : FVec F S1 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S1x512 .f32) (main_arg8 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S1024x256 .f32) (main_arg1 : FVec F S512x256 .f32) (main_arg2 : FVec F S512 .f32) (main_arg3 : FVec F S512x512 .f32) (main_arg4 : FVec F S512 .f32) (main_arg5 : FVec F S512x512 .f32) (main_arg6 : FVec F S512 .f32) (main_arg7 : FVec F S1x512 .f32) (main_arg8 : FVec F S1 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S1024x256 : Shape := ⟨2, ![1024, 256]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S1024x1 : Shape := ⟨2, ![1024, 1]⟩
abbrev S8x256 : Shape := ⟨2, ![8, 256]⟩
abbrev S8x1 : Shape := ⟨2, ![8, 1]⟩
abbrev S256x512 : Shape := ⟨2, ![256, 512]⟩
abbrev S8x512 : Shape := ⟨2, ![8, 512]⟩
abbrev S1x512x256 : Shape := ⟨3, ![1, 512, 256]⟩
abbrev S8x1x256 : Shape := ⟨3, ![8, 1, 256]⟩
abbrev S8x512x256 : Shape := ⟨3, ![8, 512, 256]⟩
abbrev S1x512x512 : Shape := ⟨3, ![1, 512, 512]⟩
abbrev S8x1x512 : Shape := ⟨3, ![8, 1, 512]⟩
abbrev S8x512x512 : Shape := ⟨3, ![8, 512, 512]⟩
abbrev S512x1 : Shape := ⟨2, ![512, 1]⟩
abbrev S1x1x512 : Shape := ⟨3, ![1, 1, 512]⟩
abbrev S1x1 : Shape := ⟨2, ![1, 1]⟩
abbrev S1024 : Shape := ⟨1, ![1024]⟩

abbrev nBuf : Space → Nat
  | .hbm => 11
  | .vmem => 12
  | .smem => 0
  | _ => 0

abbrev bufTy : (tb : Table) → Fin (tcTables nBuf tb) → BufTy
  | .hbm, ⟨0, _⟩ => ⟨S1024x256, .f32⟩
  | .hbm, ⟨1, _⟩ => ⟨S512x256, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1x512, .f32⟩
  | .hbm, ⟨8, _⟩ => ⟨S1, .f32⟩
  | .hbm, ⟨9, _⟩ => ⟨S1024x1, .f32⟩
  | .hbm, ⟨10, _⟩ => ⟨S1024, .f32⟩
  | .local _ .vmem, ⟨0, _⟩ => ⟨S8x256, .f32⟩
  | .local _ .vmem, ⟨1, _⟩ => ⟨S8x256, .f32⟩
  | .local _ .vmem, ⟨2, _⟩ => ⟨S512x256, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S1x512, .f32⟩
  | .local _ .vmem, ⟨9, _⟩ => ⟨S1, .f32⟩
  | .local _ .vmem, ⟨10, _⟩ => ⟨S8x1, .f32⟩
  | .local _ .vmem, ⟨11, _⟩ => ⟨S8x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S8x256_S8x256_0_0 : ∀ a, (![0, 0] : Fin 2 → Nat) a + S8x256.size a ≤ S8x256.size a
  h_S8x256 : 0 < S8x256.numel
  inb_S512x256_S512x256_0_0 : ∀ a, (![0, 0] : Fin 2 → Nat) a + S512x256.size a ≤ S512x256.size a
  h_S512x256 : 0 < S512x256.numel
  inb_S512_S512_0 : ∀ a, (![0] : Fin 1 → Nat) a + S512.size a ≤ S512.size a
  h_S512 : 0 < S512.numel
  bitsLt_bf16_f32 : FTy.bits .bf16 < FTy.bits .f32
  transposes_S512x256_p1_0_S256x512 : S512x256.Transposes [1, 0] S256x512
  shapeCasts_S512x256_S1x512x256 : S512x256.ShapeCasts S1x512x256
  shapeCasts_S8x256_S8x1x256 : S8x256.ShapeCasts S8x1x256
  broadcasts_S1x512x256_S8x512x256 : S1x512x256.Broadcasts S8x512x256
  broadcasts_S8x1x256_S8x512x256 : S8x1x256.Broadcasts S8x512x256
  reduces_S8x512x256_S8x512 : S8x512x256.Reduces [2] S8x512
  shapeCasts_S512_S1x512 : S512.ShapeCasts S1x512
  broadcasts_S1x512_S8x512 : S1x512.Broadcasts S8x512
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  shapeCasts_S512x512_S1x512x512 : S512x512.ShapeCasts S1x512x512
  shapeCasts_S8x512_S8x1x512 : S8x512.ShapeCasts S8x1x512
  broadcasts_S1x512x512_S8x512x512 : S1x512x512.Broadcasts S8x512x512
  broadcasts_S8x1x512_S8x512x512 : S8x1x512.Broadcasts S8x512x512
  reduces_S8x512x512_S8x512 : S8x512x512.Reduces [2] S8x512
  inb_S1x512_S1x512_0_0 : ∀ a, (![0, 0] : Fin 2 → Nat) a + S1x512.size a ≤ S1x512.size a
  h_S1x512 : 0 < S1x512.numel
  inb_S1_S1_0 : ∀ a, (![0] : Fin 1 → Nat) a + S1.size a ≤ S1.size a
  h_S1 : 0 < S1.numel
  transposes_S1x512_p1_0_S512x1 : S1x512.Transposes [1, 0] S512x1
  shapeCasts_S1x512_S1x1x512 : S1x512.ShapeCasts S1x1x512
  broadcasts_S1x1x512_S8x1x512 : S1x1x512.Broadcasts S8x1x512
  reduces_S8x1x512_S8x1 : S8x1x512.Reduces [2] S8x1
  shapeCasts_S1_S1x1 : S1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  shapeCasts_S1024x1_S1024 : S1024x1.ShapeCasts S1024
  dot_S8x256_S256x512_S8x512_1_0_0_1_n_n_wf : DotDims.WF S8x256 S256x512 S8x512 [1] [0] [0] [1] [] []
  dot_S8x512_S512x512_S8x512_1_0_0_1_n_n_wf : DotDims.WF S8x512 S512x512 S8x512 [1] [0] [0] [1] [] []
  dot_S8x512_S512x1_S8x1_1_0_0_1_n_n_wf : DotDims.WF S8x512 S512x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S1024x256.size a
  hwx0_0 : ∀ i : grid0.Coords, EltTy.bits .f32 = 32 ∨ (Rect.block (s := S1024x256) S8x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1.size a ≤ S1024x1.size a
  hwx0_9 : ∀ i : grid0.Coords, EltTy.bits .f32 = 32 ∨ (Rect.block (s := S1024x1) S8x1.size (cc0_transform_9 i) (hinb0_9 i)).WholeWords (EltTy.packing .f32)

variable [Facts₀]

def dot_S8x256_S256x512_S8x512_1_0_0_1_n_n : DotDims S8x256 S256x512 S8x512 where
  lhsContracting := [1]
  rhsContracting := [0]
  lhsNonContracting := [0]
  rhsNonContracting := [1]
  lhsBatch := []
  rhsBatch := []
  wf := dot_S8x256_S256x512_S8x512_1_0_0_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S8x512_S512x1_S8x1_1_0_0_1_n_n : DotDims S8x512 S512x1 S8x1 where
  lhsContracting := [1]
  rhsContracting := [0]
  lhsNonContracting := [0]
  rhsNonContracting := [1]
  lhsBatch := []
  rhsBatch := []
  wf := dot_S8x512_S512x1_S8x1_1_0_0_1_n_n_wf

abbrev win0_0 : Pipeline.Window sig grid0 :=
  Pipeline.Window.ofSpec (Memref.whole main_arg0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S8x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1024x256 : Shape := ⟨2, ![1024, 256]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S1 : Shape := ⟨1, ![1]⟩
abbrev S1024x512 : Shape := ⟨2, ![1024, 512]⟩
abbrev S1x512x256 : Shape := ⟨3, ![1, 512, 256]⟩
abbrev S1024x1x256 : Shape := ⟨3, ![1024, 1, 256]⟩
abbrev S1024x512x256 : Shape := ⟨3, ![1024, 512, 256]⟩
abbrev S_ : Shape := ⟨0, ![]⟩
abbrev S1x512x512 : Shape := ⟨3, ![1, 512, 512]⟩
abbrev S1024x1x512 : Shape := ⟨3, ![1024, 1, 512]⟩
abbrev S1024x512x512 : Shape := ⟨3, ![1024, 512, 512]⟩
abbrev S1024x1 : Shape := ⟨2, ![1024, 1]⟩
abbrev S1x1x512 : Shape := ⟨3, ![1, 1, 512]⟩
abbrev S1x1 : Shape := ⟨2, ![1, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S512x256, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1x512, .f32⟩
  | .hbm, ⟨8, _⟩ => ⟨S1, .f32⟩
  | .hbm, ⟨9, _⟩ => ⟨S1024x512, .f32⟩
  | .hbm, ⟨10, _⟩ => ⟨S1x512x256, .f32⟩
  | .hbm, ⟨11, _⟩ => ⟨S1024x1x256, .f32⟩
  | .hbm, ⟨12, _⟩ => ⟨S1024x512x256, .f32⟩
  | .hbm, ⟨13, _⟩ => ⟨S1024x512x256, .f32⟩
  | .hbm, ⟨14, _⟩ => ⟨S1024x512x256, .f32⟩
  | .hbm, ⟨15, _⟩ => ⟨S_, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1x512, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1x512x512, .f32⟩
  | .hbm, ⟨29, _⟩ => ⟨S1024x1x512, .f32⟩
  | .hbm, ⟨30, _⟩ => ⟨S1024x512x512, .f32⟩
  | .hbm, ⟨31, _⟩ => ⟨S1024x512x512, .f32⟩
  | .hbm, ⟨32, _⟩ => ⟨S1024x512x512, .f32⟩
  | .hbm, ⟨33, _⟩ => ⟨S_, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1x512, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S1x512x512, .f32⟩
  | .hbm, ⟨47, _⟩ => ⟨S1024x1x512, .f32⟩
  | .hbm, ⟨48, _⟩ => ⟨S1024x512x512, .f32⟩
  | .hbm, ⟨49, _⟩ => ⟨S1024x512x512, .f32⟩
  | .hbm, ⟨50, _⟩ => ⟨S1024x512x512, .f32⟩
  | .hbm, ⟨51, _⟩ => ⟨S_, .f32⟩
  | .hbm, ⟨52, _⟩ => ⟨S1024x512, .f32⟩
  | .hbm, ⟨53, _⟩ => ⟨S_, .f32⟩
  | .hbm, ⟨54, _⟩ => ⟨S1024x512, .f32⟩
  | .hbm, ⟨55, _⟩ => ⟨S1024x512, .f32⟩
  | .hbm, ⟨56, _⟩ => ⟨S_, .f32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S1x512, .f32⟩
  | .hbm, ⟨61, _⟩ => ⟨S1024x512, .f32⟩
  | .hbm, ⟨62, _⟩ => ⟨S1024x512, .f32⟩
  | .hbm, ⟨63, _⟩ => ⟨S1024x1, .f32⟩
  | .hbm, ⟨64, _⟩ => ⟨S1x1x512, .f32⟩
  | .hbm, ⟨65, _⟩ => ⟨S1024x1x512, .f32⟩
  | .hbm, ⟨66, _⟩ => ⟨S1024x1x512, .f32⟩
  | .hbm, ⟨67, _⟩ => ⟨S1024x1x512, .f32⟩
  | .hbm, ⟨68, _⟩ => ⟨S_, .f32⟩
  | .hbm, ⟨69, _⟩ => ⟨S1024x1, .f32⟩
  | .hbm, ⟨70, _⟩ => ⟨S_, .f32⟩
  | .hbm, ⟨71, _⟩ => ⟨S1024x1, .f32⟩
  | .hbm, ⟨72, _⟩ => ⟨S1024x1, .f32⟩
  | .hbm, ⟨73, _⟩ => ⟨S_, .f32⟩
  | .hbm, ⟨74, _⟩ => ⟨S1024x1, .f32⟩
  | .hbm, ⟨75, _⟩ => ⟨S1024x1, .f32⟩
  | .hbm, ⟨76, _⟩ => ⟨S1024x1, .f32⟩
  | .hbm, ⟨77, _⟩ => ⟨S1x1, .f32⟩
  | .hbm, ⟨78, _⟩ => ⟨S1024x1, .f32⟩
  | .hbm, ⟨79, _⟩ => ⟨S1024x1, .f32⟩
  | .hbm, ⟨80, _⟩ => ⟨S1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  bcast_S512x256_S1x512x256_1_2 : S512x256.BroadcastsInDim S1x512x256 (![1, 2] : Fin 2 → Fin S1x512x256.rank)
  bcast_S1024x256_S1024x1x256_0_2 : S1024x256.BroadcastsInDim S1024x1x256 (![0, 2] : Fin 2 → Fin S1024x1x256.rank)
  bcast_S1x512x256_S1024x512x256_0_1_2 : S1x512x256.BroadcastsInDim S1024x512x256 (![0, 1, 2] : Fin 3 → Fin S1024x512x256.rank)
  bcast_S1024x1x256_S1024x512x256_0_1_2 : S1024x1x256.BroadcastsInDim S1024x512x256 (![0, 1, 2] : Fin 3 → Fin S1024x512x256.rank)
  reducesTo_S1024x512x256_S1024x512_d2 : S1024x512x256.ReducesTo [2] S1024x512
  h_S_ : 0 < S_.numel
  bcast_S_S1024x512 : S_.BroadcastsInDim S1024x512 (![] : Fin 0 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S512x512_S1x512x512_1_2 : S512x512.BroadcastsInDim S1x512x512 (![1, 2] : Fin 2 → Fin S1x512x512.rank)
  bcast_S1024x512_S1024x1x512_0_2 : S1024x512.BroadcastsInDim S1024x1x512 (![0, 2] : Fin 2 → Fin S1024x1x512.rank)
  bcast_S1x512x512_S1024x512x512_0_1_2 : S1x512x512.BroadcastsInDim S1024x512x512 (![0, 1, 2] : Fin 3 → Fin S1024x512x512.rank)
  bcast_S1024x1x512_S1024x512x512_0_1_2 : S1024x1x512.BroadcastsInDim S1024x512x512 (![0, 1, 2] : Fin 3 → Fin S1024x512x512.rank)
  reducesTo_S1024x512x512_S1024x512_d2 : S1024x512x512.ReducesTo [2] S1024x512
  bcast_S1x512_S1x1x512_1_2 : S1x512.BroadcastsInDim S1x1x512 (![1, 2] : Fin 2 → Fin S1x1x512.rank)
  bcast_S1x1x512_S1024x1x512_0_1_2 : S1x1x512.BroadcastsInDim S1024x1x512 (![0, 1, 2] : Fin 3 → Fin S1024x1x512.rank)
  reducesTo_S1024x1x512_S1024x1_d2 : S1024x1x512.ReducesTo [2] S1024x1
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  dot_S1024x256_S512x256_S1024x512_1_1_0_0_n_n_wf : DotDims.WF S1024x256 S512x256 S1024x512 [1] [1] [0] [0] [] []
  dot_S1024x512_S512x512_S1024x512_1_1_0_0_n_n_wf : DotDims.WF S1024x512 S512x512 S1024x512 [1] [1] [0] [0] [] []
  dot_S1024x512_S1x512_S1024x1_1_1_0_0_n_n_wf : DotDims.WF S1024x512 S1x512 S1024x1 [1] [1] [0] [0] [] []

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x512_S1x512_S1024x1_1_1_0_0_n_n : DotDims S1024x512 S1x512 S1024x1 where
  lhsContracting := [1]
  rhsContracting := [1]
  lhsNonContracting := [0]
  rhsNonContracting := [0]
  lhsBatch := []
  rhsBatch := []
  wf := dot_S1024x512_S1x512_S1024x1_1_1_0_0_n_n_wf

class Facts : Prop extends Facts₀ where

variable [Facts]
-- ==== Proof.Tempered.lean ====
/-
  The mathematics of the network, with no program in sight.

  A "max-tempered" layer sends an input row x (I numbers), a weight matrix W (O rows of I numbers) and a bias b
  (O numbers) to the row whose entry o is

      0.8 · ∑ₖ x k · W o k  +  0.2 · maxₖ (W o k · x k)  +  b o,

  the sum and the maximum over the I input coordinates, the maximum started from -∞, and 0.8, 0.2, -∞ the values of
  the three f32 words both programs spell. On the extended reals this is a function of ONE input row: a layer applied
  to a stack of rows acts on each row by itself, so the rows of a block of a batch go through a stack of layers exactly
  as they do inside the whole batch (`layer_rows`, `net_rows`). Everything else in this certificate reads one of the
  two programs as this function.
-/
import Idealize.ShloMosaic.PureOps.Ideal
import Idealize.ShloMosaic.Lib.ValueIdx

noncomputable section

namespace Cert.Tempered

open Idealize.ShloMosaic Idealize.ShloMosaic.ValueIdx

/-- One output entry of a layer, from the input row `xr`, the weight row `wr` and the bias entry `b`. The three words are
    the f32 patterns both programs write for 0.8, 0.2 and -∞; they are kept as words (whatever extended reals they
    denote, both programs mean the same ones), never evaluated. -/
def unit {I : ℕ} (xr wr : Fin I → EReal) (b : EReal) : EReal :=
  FloatOps.ofBits (F := Ideal) .f32 0x3F4CCCCD#32 * (∑ k : Fin I, xr k * wr k)
    + FloatOps.ofBits (F := Ideal) .f32 0x3E4CCCCD#32 * ((Finset.univ : Finset (Fin I)).fold max (FloatOps.ofBits (F := Ideal) .f32 0xFF800000#32) fun k => wr k * xr k)
    + b

/-- A layer on a stack of `n` rows: entry (r, o) is `unit` of row r of `x`, row o of `W` and entry o of `b`. -/
def layer {n I O : ℕ} (x : (⟨2, ![n, I]⟩ : Shape).Idx → EReal) (W : (⟨2, ![O, I]⟩ : Shape).Idx → EReal)
    (b : (⟨1, ![O]⟩ : Shape).Idx → EReal) : (⟨2, ![n, O]⟩ : Shape).Idx → EReal :=
  fun j => unit (fun k => x (ix2 (j 0) k)) (fun k => W (ix2 (j 1) k)) (b (ix1 (j 1)))

theorem layer_apply {n I O : ℕ} (x : (⟨2, ![n, I]⟩ : Shape).Idx → EReal) (W : (⟨2, ![O, I]⟩ : Shape).Idx → EReal)
    (b : (⟨1, ![O]⟩ : Shape).Idx → EReal) (r : Fin n) (o : Fin O) :
    layer x W b (ix2 r o) = unit (fun k => x (ix2 r k)) (fun k => W (ix2 o k)) (b (ix1 o)) := rfl

/-- A layer acts row by row: if row p of `x'` is row `f p` of `x`, then row p of the layer of `x'` is row `f p` of the
    layer of `x`. -/
theorem layer_rows {n n' I O : ℕ} (f : Fin n' → Fin n) (x : (⟨2, ![n, I]⟩ : Shape).Idx → EReal)
    (x' : (⟨2, ![n', I]⟩ : Shape).Idx → EReal) (W : (⟨2, ![O, I]⟩ : Shape).Idx → EReal) (b : (⟨1, ![O]⟩ : Shape).Idx → EReal)
    (hx : ∀ p k, x' (ix2 p k) = x (ix2 (f p) k)) (p : Fin n') (o : Fin O) :
    layer x' W b (ix2 p o) = layer x W b (ix2 (f p) o) := by
  rw [layer_apply, layer_apply]
  simp only [hx]

/-- The network: four layers, 256 → 512 → 512 → 512 → 1, on a stack of `n` rows. -/
def net {n : ℕ} (x : (⟨2, ![n, 256]⟩ : Shape).Idx → EReal)
    (W1 : (⟨2, ![512, 256]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 512]⟩ : Shape).Idx → EReal) (b3 : (⟨1, ![512]⟩ : Shape).Idx → EReal)
    (W4 : (⟨2, ![1, 512]⟩ : Shape).Idx → EReal) (b4 : (⟨1, ![1]⟩ : Shape).Idx → EReal) :
    (⟨2, ![n, 1]⟩ : Shape).Idx → EReal :=
  layer (layer (layer (layer x W1 b1) W2 b2) W3 b3) W4 b4

/-- The network acts row by row. -/
theorem net_rows {n n' : ℕ} (f : Fin n' → Fin n) (x : (⟨2, ![n, 256]⟩ : Shape).Idx → EReal)
    (x' : (⟨2, ![n', 256]⟩ : Shape).Idx → EReal)
    (W1 : (⟨2, ![512, 256]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 512]⟩ : Shape).Idx → EReal) (b3 : (⟨1, ![512]⟩ : Shape).Idx → EReal)
    (W4 : (⟨2, ![1, 512]⟩ : Shape).Idx → EReal) (b4 : (⟨1, ![1]⟩ : Shape).Idx → EReal)
    (hx : ∀ p k, x' (ix2 p k) = x (ix2 (f p) k)) (p : Fin n') (o : Fin 1) :
    net x' W1 b1 W2 b2 W3 b3 W4 b4 (ix2 p o) = net x W1 b1 W2 b2 W3 b3 W4 b4 (ix2 (f p) o) :=
  layer_rows f _ _ W4 b4 (fun p k => layer_rows f _ _ W3 b3 (fun p k => layer_rows f _ _ W2 b2
    (fun p k => layer_rows f x x' W1 b1 hx p k) p k) p k) p o

end Cert.Tempered

end
-- ==== Proof.LibLayoutReads.lean ====
/-
  General lemmas (no program): layout operations of rank-3 broadcast products read at an index, and a maximum
  over the last axis of a rank-3 array as a fold over that axis's coordinates — for a kernel's
  `vector.multi_reduction <maximumf>` and for the host's `stablehlo.reduce` with a maximum body alike.

  * `shapeCast_ab_a1b_apply`  : an [a, b] array cast to [a, 1, b] reads, at (p, u, k), the operand at (p, k).
  * `broadcastTo_1ob_nob_apply`: a [1, o, b] array broadcast to [n, o, b] reads, at (p, q, k), the operand at (0, q, k).
  * `broadcastTo_n1b_nob_apply`: an [n, 1, b] array broadcast to [n, o, b] reads, at (p, q, k), the operand at (p, 0, k).
  * `lift_last`               : the index of a rank-3 array over (p, q) with k put back on the last axis is (p, q, k).
  * `multiReduction_max_last`  : the kernel's maximum over the last axis at (p, q) is the fold of `max`, from the
                                 accumulator's value, of the entries (p, q, k).
  * `hostReduce_max_last`      : the host's likewise, from the initial value's one element.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LayoutReads

open Idealize.ShloMosaic Idealize.ShloMosaic.ValueIdx

variable {α : Type}

/-- An `[a, b]` array cast to `[a, 1, b]` reads, at `(p, u, k)`, the operand at `(p, k)`: the unit axis in the middle
    does not move the row-major position. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- A `[1, o, b]` array broadcast to `[n, o, b]` reads, at `(p, q, k)`, the operand's one slab at `(q, k)`. -/
theorem broadcastTo_1ob_nob_apply {n o b : ℕ} (v : (⟨3, ![1, o, b]⟩ : Shape).Idx → α)
    (h : (⟨3, ![1, o, b]⟩ : Shape).Broadcasts ⟨3, ![n, o, b]⟩) (p : Fin n) (q : Fin o) (k : Fin b) :
    broadcastTo ⟨3, ![n, o, b]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if o = 1 then 0 else q.val
    split
    · have := q.isLt; omega
    · rfl
  | ⟨2, _⟩ =>
    show k.val = if b = 1 then 0 else k.val
    split
    · have := k.isLt; omega
    · rfl

/-- An `[n, 1, b]` array broadcast to `[n, o, b]` reads, at `(p, q, k)`, the operand's row `p` at `k`. -/
theorem broadcastTo_n1b_nob_apply {n o b : ℕ} (v : (⟨3, ![n, 1, b]⟩ : Shape).Idx → α)
    (h : (⟨3, ![n, 1, b]⟩ : Shape).Broadcasts ⟨3, ![n, o, b]⟩) (p : Fin n) (q : Fin o) (k : Fin b) :
    broadcastTo ⟨3, ![n, o, b]⟩ v h (ix3 p q k) = v (ix3 p (0 : Fin 1) k) := by
  refine broadcastTo_apply v h (ix3 p q k) (ix3 p (0 : Fin 1) k) fun ax => ?_
  match ax with
  | ⟨0, _⟩ =>
    show p.val = if n = 1 then 0 else p.val
    split
    · have := p.isLt; omega
    · rfl
  | ⟨1, _⟩ => rfl
  | ⟨2, _⟩ =>
    show k.val = if b = 1 then 0 else k.val
    split
    · have := k.isLt; omega
    · rfl

/-- Over the result index `(p, q)` of a reduction of an `[n, o, b]` array along its last axis, the source index with
    `k` put back on that axis is `(p, q, k)`. -/
theorem lift_last {n o b : ℕ} (h : (⟨3, ![n, o, b]⟩ : Shape).Reduces [2] ⟨2, ![n, o]⟩) (p : Fin n) (q : Fin o) (k : Fin b) :
    h.lift (ix2 p q) k = ix3 p q k :=
  funext fun c => Fin.ext (by
    match c with
    | ⟨0, _⟩ => rfl
    | ⟨1, _⟩ => rfl
    | ⟨2, _⟩ => rfl)

/-- The kernel's `vector.multi_reduction <maximumf>` over the last axis of an `[n, o, b]` array, read at `(p, q)` on the
    extended reals: the fold of `max`, from the accumulator's value, over the `b` entries `(p, q, k)`. -/
theorem multiReduction_max_last {φ : FTy} {n o b : ℕ} (src : FVec Ideal ⟨3, ![n, o, b]⟩ φ) (acc : BitVec φ.bits)
    (h : (⟨3, ![n, o, b]⟩ : Shape).Reduces [2] ⟨2, ![n, o]⟩) (hφ : FKind.Formats φ) (hacc : acc = FKind.maximumf.neutral φ hφ)
    (p : Fin n) (q : Fin o) :
    multiReduction .maximumf [2] ⟨2, ![n, o]⟩ src acc h hφ hacc (ix2 p q)
      = (Finset.univ : Finset (Fin b)).fold max (FloatOps.ofBits (F := Ideal) φ acc) fun k => src (ix3 p q k) := by
  rw [Ideal.multiReduction_maximumf_single]
  exact congrArg (fun f : Fin b → EReal => (Finset.univ : Finset (Fin b)).fold max (FloatOps.ofBits (F := Ideal) φ acc) f)
    (funext fun k => congrArg src (lift_last h p q k))

/-- The host's `stablehlo.reduce` with a maximum body over the last axis of an `[n, o, b]` array, read at `(p, q)` on the
    extended reals: the fold of `max`, from the initial value's one element, over the `b` entries `(p, q, k)`. -/
theorem hostReduce_max_last {φ : FTy} {u : Shape} {n o b : ℕ} (x : FVec Ideal ⟨3, ![n, o, b]⟩ φ) (init : FVec Ideal u φ)
    (h' : (⟨3, ![n, o, b]⟩ : Shape).ReducesTo [2] ⟨2, ![n, o]⟩) (h : (⟨3, ![n, o, b]⟩ : Shape).Reduces [2] ⟨2, ![n, o]⟩)
    (hu : 0 < u.numel) (p : Fin n) (q : Fin o) :
    Host.reduce (FloatOps.maximumf (F := Ideal) (φ := φ)) x init h' hu (ix2 p q)
      = (Finset.univ : Finset (Fin b)).fold max (init (Shape.Idx.first hu)) fun k => x (ix3 p q k) := by
  rw [Host.reduce_eq_fold_single (FloatOps.maximumf (F := Ideal) (φ := φ)) x init h' h hu]
  exact congrArg (fun f : Fin b → EReal => (Finset.univ : Finset (Fin b)).fold max (init (Shape.Idx.first hu)) f)
    (funext fun k => congrArg x (lift_last h p q k))

end Cert.LayoutReads

end
-- ==== Proof.KernelProducts.lean ====
/-
  The kernel's three matrix products, read entry by entry on the extended reals.

  A layer's linear part multiplies a block of 8 rows (bf16) with the transposed weight matrix into a zero accumulator;
  the dot's dimension numbers contract the left operand's second axis with the right operand's first. So entry (p, o) of
  the product is ∑ₖ left (p, k) · right (k, o): the library's sum over the dot's contraction index, re-indexed by the
  one contracted coordinate.
-/
import proofs.«142806_j40312563041045_1_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ## The three matrix products, entry by entry

Each contracts the left operand's second axis with the right operand's first; the other two axes are the result's. -/

/-! ### 8 × 256 times 256 × 512 -/

theorem mm256_lhs0 (i : S8x512.Idx) (q : dot_S8x256_S256x512_S8x512_1_0_0_1_n_n.contr.Idx) :
    (dot_S8x256_S256x512_S8x512_1_0_0_1_n_n.lhsIdx i q 0).val = (i 0).val := by
  unfold DotDims.lhsIdx
  rw [dif_neg (show ¬(0 : Fin S8x256.rank) ∈ dot_S8x256_S256x512_S8x512_1_0_0_1_n_n.lhsBatch by decide), dif_pos (show (0 : Fin S8x256.rank) ∈ dot_S8x256_S256x512_S8x512_1_0_0_1_n_n.lhsNonContracting by decide)]
  rfl
theorem mm256_lhs1 (i : S8x512.Idx) (q : dot_S8x256_S256x512_S8x512_1_0_0_1_n_n.contr.Idx) :
    (dot_S8x256_S256x512_S8x512_1_0_0_1_n_n.lhsIdx i q 1).val = (q ⟨0, by decide⟩).val :=
  dot_S8x256_S256x512_S8x512_1_0_0_1_n_n.lhsIdx_val_of_single rfl i q
theorem mm256_rhs0 (i : S8x512.Idx) (q : dot_S8x256_S256x512_S8x512_1_0_0_1_n_n.contr.Idx) :
    (dot_S8x256_S256x512_S8x512_1_0_0_1_n_n.rhsIdx i q 0).val = (q ⟨0, by decide⟩).val :=
  dot_S8x256_S256x512_S8x512_1_0_0_1_n_n.rhsIdx_val_of_single rfl i q
theorem mm256_rhs1 (i : S8x512.Idx) (q : dot_S8x256_S256x512_S8x512_1_0_0_1_n_n.contr.Idx) :
    (dot_S8x256_S256x512_S8x512_1_0_0_1_n_n.rhsIdx i q 1).val = (i 1).val := by
  unfold DotDims.rhsIdx
  rw [dif_neg (show ¬(1 : Fin S256x512.rank) ∈ dot_S8x256_S256x512_S8x512_1_0_0_1_n_n.rhsBatch by decide), dif_pos (show (1 : Fin S256x512.rank) ∈ dot_S8x256_S256x512_S8x512_1_0_0_1_n_n.rhsNonContracting by decide)]
  rfl

/-- Into a zero accumulator, entry (p, o) of the product is the sum over k of left (p, k) times right (k, o). -/
theorem mm256_apply (l : FVec Ideal S8x256 .bf16) (r : FVec Ideal S256x512 .bf16) (p : Fin 8) (o : Fin 512) :
    matmul dot_S8x256_S256x512_S8x512_1_0_0_1_n_n none l r (constant S8x512 .f32 0x00000000#32) (ix2 p o)
      = ∑ k : Fin 256, l (ix2 p k) * r (ix2 k o) := by
  simp only [matmul]
  rw [Ideal.matmul_constant_zero_apply, ← Equiv.sum_comp (contrEquiv1 dot_S8x256_S256x512_S8x512_1_0_0_1_n_n 256 rfl rfl).symm]
  refine Finset.sum_congr rfl fun k _ => ?_
  have hk := contrEquiv1_symm_val dot_S8x256_S256x512_S8x512_1_0_0_1_n_n 256 rfl rfl k
  have el : dot_S8x256_S256x512_S8x512_1_0_0_1_n_n.lhsIdx (ix2 p o) ((contrEquiv1 dot_S8x256_S256x512_S8x512_1_0_0_1_n_n 256 rfl rfl).symm k) = ix2 p k := funext fun a => Fin.ext (by
    match a with
    | ⟨0, _⟩ => exact mm256_lhs0 _ _
    | ⟨1, _⟩ => exact (mm256_lhs1 _ _).trans hk)
  have er : dot_S8x256_S256x512_S8x512_1_0_0_1_n_n.rhsIdx (ix2 p o) ((contrEquiv1 dot_S8x256_S256x512_S8x512_1_0_0_1_n_n 256 rfl rfl).symm k) = ix2 k o := funext fun a => Fin.ext (by
    match a with
    | ⟨0, _⟩ => exact (mm256_rhs0 _ _).trans hk
    | ⟨1, _⟩ => exact mm256_rhs1 _ _)
  rw [el, er]

/-! ### 8 × 512 times 512 × 512 -/

theorem mm512_lhs0 (i : S8x512.Idx) (q : dot_S8x512_S512x512_S8x512_1_0_0_1_n_n.contr.Idx) :
    (dot_S8x512_S512x512_S8x512_1_0_0_1_n_n.lhsIdx i q 0).val = (i 0).val := by
  unfold DotDims.lhsIdx
  rw [dif_neg (show ¬(0 : Fin S8x512.rank) ∈ dot_S8x512_S512x512_S8x512_1_0_0_1_n_n.lhsBatch by decide), dif_pos (show (0 : Fin S8x512.rank) ∈ dot_S8x512_S512x512_S8x512_1_0_0_1_n_n.lhsNonContracting by decide)]
  rfl
theorem mm512_lhs1 (i : S8x512.Idx) (q : dot_S8x512_S512x512_S8x512_1_0_0_1_n_n.contr.Idx) :
    (dot_S8x512_S512x512_S8x512_1_0_0_1_n_n.lhsIdx i q 1).val = (q ⟨0, by decide⟩).val :=
  dot_S8x512_S512x512_S8x512_1_0_0_1_n_n.lhsIdx_val_of_single rfl i q
theorem mm512_rhs0 (i : S8x512.Idx) (q : dot_S8x512_S512x512_S8x512_1_0_0_1_n_n.contr.Idx) :
    (dot_S8x512_S512x512_S8x512_1_0_0_1_n_n.rhsIdx i q 0).val = (q ⟨0, by decide⟩).val :=
  dot_S8x512_S512x512_S8x512_1_0_0_1_n_n.rhsIdx_val_of_single rfl i q
theorem mm512_rhs1 (i : S8x512.Idx) (q : dot_S8x512_S512x512_S8x512_1_0_0_1_n_n.contr.Idx) :
    (dot_S8x512_S512x512_S8x512_1_0_0_1_n_n.rhsIdx i q 1).val = (i 1).val := by
  unfold DotDims.rhsIdx
  rw [dif_neg (show ¬(1 : Fin S512x512.rank) ∈ dot_S8x512_S512x512_S8x512_1_0_0_1_n_n.rhsBatch by decide), dif_pos (show (1 : Fin S512x512.rank) ∈ dot_S8x512_S512x512_S8x512_1_0_0_1_n_n.rhsNonContracting by decide)]
  rfl

/-- Into a zero accumulator, entry (p, o) of the product is the sum over k of left (p, k) times right (k, o). -/
theorem mm512_apply (l : FVec Ideal S8x512 .bf16) (r : FVec Ideal S512x512 .bf16) (p : Fin 8) (o : Fin 512) :
    matmul dot_S8x512_S512x512_S8x512_1_0_0_1_n_n none l r (constant S8x512 .f32 0x00000000#32) (ix2 p o)
      = ∑ k : Fin 512, l (ix2 p k) * r (ix2 k o) := by
  simp only [matmul]
  rw [Ideal.matmul_constant_zero_apply, ← Equiv.sum_comp (contrEquiv1 dot_S8x512_S512x512_S8x512_1_0_0_1_n_n 512 rfl rfl).symm]
  refine Finset.sum_congr rfl fun k _ => ?_
  have hk := contrEquiv1_symm_val dot_S8x512_S512x512_S8x512_1_0_0_1_n_n 512 rfl rfl k
  have el : dot_S8x512_S512x512_S8x512_1_0_0_1_n_n.lhsIdx (ix2 p o) ((contrEquiv1 dot_S8x512_S512x512_S8x512_1_0_0_1_n_n 512 rfl rfl).symm k) = ix2 p k := funext fun a => Fin.ext (by
    match a with
    | ⟨0, _⟩ => exact mm512_lhs0 _ _
    | ⟨1, _⟩ => exact (mm512_lhs1 _ _).trans hk)
  have er : dot_S8x512_S512x512_S8x512_1_0_0_1_n_n.rhsIdx (ix2 p o) ((contrEquiv1 dot_S8x512_S512x512_S8x512_1_0_0_1_n_n 512 rfl rfl).symm k) = ix2 k o := funext fun a => Fin.ext (by
    match a with
    | ⟨0, _⟩ => exact (mm512_rhs0 _ _).trans hk
    | ⟨1, _⟩ => exact mm512_rhs1 _ _)
  rw [el, er]

/-! ### 8 × 512 times 512 × 1 -/

theorem mmOut_lhs0 (i : S8x1.Idx) (q : dot_S8x512_S512x1_S8x1_1_0_0_1_n_n.contr.Idx) :
    (dot_S8x512_S512x1_S8x1_1_0_0_1_n_n.lhsIdx i q 0).val = (i 0).val := by
  unfold DotDims.lhsIdx
  rw [dif_neg (show ¬(0 : Fin S8x512.rank) ∈ dot_S8x512_S512x1_S8x1_1_0_0_1_n_n.lhsBatch by decide), dif_pos (show (0 : Fin S8x512.rank) ∈ dot_S8x512_S512x1_S8x1_1_0_0_1_n_n.lhsNonContracting by decide)]
  rfl
theorem mmOut_lhs1 (i : S8x1.Idx) (q : dot_S8x512_S512x1_S8x1_1_0_0_1_n_n.contr.Idx) :
    (dot_S8x512_S512x1_S8x1_1_0_0_1_n_n.lhsIdx i q 1).val = (q ⟨0, by decide⟩).val :=
  dot_S8x512_S512x1_S8x1_1_0_0_1_n_n.lhsIdx_val_of_single rfl i q
theorem mmOut_rhs0 (i : S8x1.Idx) (q : dot_S8x512_S512x1_S8x1_1_0_0_1_n_n.contr.Idx) :
    (dot_S8x512_S512x1_S8x1_1_0_0_1_n_n.rhsIdx i q 0).val = (q ⟨0, by decide⟩).val :=
  dot_S8x512_S512x1_S8x1_1_0_0_1_n_n.rhsIdx_val_of_single rfl i q
theorem mmOut_rhs1 (i : S8x1.Idx) (q : dot_S8x512_S512x1_S8x1_1_0_0_1_n_n.contr.Idx) :
    (dot_S8x512_S512x1_S8x1_1_0_0_1_n_n.rhsIdx i q 1).val = (i 1).val := by
  unfold DotDims.rhsIdx
  rw [dif_neg (show ¬(1 : Fin S512x1.rank) ∈ dot_S8x512_S512x1_S8x1_1_0_0_1_n_n.rhsBatch by decide), dif_pos (show (1 : Fin S512x1.rank) ∈ dot_S8x512_S512x1_S8x1_1_0_0_1_n_n.rhsNonContracting by decide)]
  rfl

/-- Into a zero accumulator, entry (p, o) of the product is the sum over k of left (p, k) times right (k, o). -/
theorem mmOut_apply (l : FVec Ideal S8x512 .bf16) (r : FVec Ideal S512x1 .bf16) (p : Fin 8) (o : Fin 1) :
    matmul dot_S8x512_S512x1_S8x1_1_0_0_1_n_n none l r (constant S8x1 .f32 0x00000000#32) (ix2 p o)
      = ∑ k : Fin 512, l (ix2 p k) * r (ix2 k o) := by
  simp only [matmul]
  rw [Ideal.matmul_constant_zero_apply, ← Equiv.sum_comp (contrEquiv1 dot_S8x512_S512x1_S8x1_1_0_0_1_n_n 512 rfl rfl).symm]
  refine Finset.sum_congr rfl fun k _ => ?_
  have hk := contrEquiv1_symm_val dot_S8x512_S512x1_S8x1_1_0_0_1_n_n 512 rfl rfl k
  have el : dot_S8x512_S512x1_S8x1_1_0_0_1_n_n.lhsIdx (ix2 p o) ((contrEquiv1 dot_S8x512_S512x1_S8x1_1_0_0_1_n_n 512 rfl rfl).symm k) = ix2 p k := funext fun a => Fin.ext (by
    match a with
    | ⟨0, _⟩ => exact mmOut_lhs0 _ _
    | ⟨1, _⟩ => exact (mmOut_lhs1 _ _).trans hk)
  have er : dot_S8x512_S512x1_S8x1_1_0_0_1_n_n.rhsIdx (ix2 p o) ((contrEquiv1 dot_S8x512_S512x1_S8x1_1_0_0_1_n_n 512 rfl rfl).symm k) = ix2 k o := funext fun a => Fin.ext (by
    match a with
    | ⟨0, _⟩ => exact (mmOut_rhs0 _ _).trans hk
    | ⟨1, _⟩ => exact mmOut_rhs1 _ _)
  rw [el, er]

end Cert.KernelIdeal.Products

end
-- ==== Proof.KernelLayers.lean ====
/-
  The kernel's arithmetic, read on the extended reals.

  The body computes four layers on a block of 8 rows. Each layer is spelled the same way: both operands rounded to
  bf16 (the identity on the extended reals), the weight matrix transposed and multiplied into a zero accumulator — so
  entry (p, o) of the product is ∑ₖ x p k · W o k —; the weights and the rows laid side by side in a rank-3 array
  (p, o, k) ↦ W o k · x p k and its maximum taken along k from -∞; then 0.8 · product + 0.2 · maximum + bias row (`blend`). Read
  at an entry (p, o) this is `Tempered.unit` of row p of the input, row o of the weights and entry o of the bias:
  each spelling IS `Tempered.layer` (`spell256_eq`, `spell512_eq`, `spellOut_eq`), and the two payloads the body
  is cut into are two layers each (`pay2_eq`, `pay1_eq`).
-/
import proofs.«142806_j40312563041045_1_alg».proof.Proof.Gen.KernelIdeal.Skeleton
import proofs.«142806_j40312563041045_1_alg».proof.Proof.Tempered
import proofs.«142806_j40312563041045_1_alg».proof.Proof.LibLayoutReads
import proofs.«142806_j40312563041045_1_alg».proof.Proof.KernelProducts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Cert.KernelIdeal Cert.KernelIdeal.Gen Cert.KernelIdeal.Products Idealize.ShloMosaic Idealize.ShloMosaic.ValueIdx Cert.Tempered Cert.LayoutReads

/-! ## The kernel's spelling of a layer, at its three sizes -/

/-- The last three operations of every layer, on any three vectors of one shape: 0.8 · M + 0.2 · R + B, entry by entry. -/
def blend {S : Shape} (M R B : FVec Ideal S .f32) : FVec Ideal S .f32 :=
  addf (addf (mulf (broadcast S (Scalar.ofBits .f32 0x3F4CCCCD#32)) M) (mulf (broadcast S (Scalar.ofBits .f32 0x3E4CCCCD#32)) R)) B

theorem blend_apply {S : Shape} (M R B : FVec Ideal S .f32) (j : S.Idx) :
    blend M R B j = FloatOps.ofBits (F := Ideal) .f32 0x3F4CCCCD#32 * M j + FloatOps.ofBits (F := Ideal) .f32 0x3E4CCCCD#32 * R j + B j := rfl

/-- 256 inputs, 512 outputs, on 8 rows. -/
def spell256 (x : FVec Ideal S8x256 .f32) (W : FVec Ideal S512x256 .f32) (b : FVec Ideal S512 .f32) : FVec Ideal S8x512 .f32 :=
  blend
    (matmul dot_S8x256_S256x512_S8x512_1_0_0_1_n_n none (truncf .bf16 x bitsLt_bf16_f32)
      (transpose S256x512 [1, 0] (truncf .bf16 W bitsLt_bf16_f32) transposes_S512x256_p1_0_S256x512) (constant S8x512 .f32 0x00000000#32))
    (multiReduction .maximumf [2] S8x512 (mulf (broadcastTo S8x512x256 (shapeCast S1x512x256 W shapeCasts_S512x256_S1x512x256) broadcasts_S1x512x256_S8x512x256)
      (broadcastTo S8x512x256 (shapeCast S8x1x256 x shapeCasts_S8x256_S8x1x256) broadcasts_S8x1x256_S8x512x256)) 0xFF800000#32 reduces_S8x512x256_S8x512 (.inl rfl) rfl)
    (broadcastTo S8x512 (shapeCast S1x512 b shapeCasts_S512_S1x512) broadcasts_S1x512_S8x512)

/-- 512 inputs, 512 outputs, on 8 rows. -/
def spell512 (x : FVec Ideal S8x512 .f32) (W : FVec Ideal S512x512 .f32) (b : FVec Ideal S512 .f32) : FVec Ideal S8x512 .f32 :=
  blend
    (matmul dot_S8x512_S512x512_S8x512_1_0_0_1_n_n none (truncf .bf16 x bitsLt_bf16_f32)
      (transpose S512x512 [1, 0] (truncf .bf16 W bitsLt_bf16_f32) transposes_S512x512_p1_0_S512x512) (constant S8x512 .f32 0x00000000#32))
    (multiReduction .maximumf [2] S8x512 (mulf (broadcastTo S8x512x512 (shapeCast S1x512x512 W shapeCasts_S512x512_S1x512x512) broadcasts_S1x512x512_S8x512x512)
      (broadcastTo S8x512x512 (shapeCast S8x1x512 x shapeCasts_S8x512_S8x1x512) broadcasts_S8x1x512_S8x512x512)) 0xFF800000#32 reduces_S8x512x512_S8x512 (.inl rfl) rfl)
    (broadcastTo S8x512 (shapeCast S1x512 b shapeCasts_S512_S1x512) broadcasts_S1x512_S8x512)

/-- 512 inputs, one output, on 8 rows (here the rows need no broadcast: the one weight row is laid over them). -/
def spellOut (x : FVec Ideal S8x512 .f32) (W : FVec Ideal S1x512 .f32) (b : FVec Ideal S1 .f32) : FVec Ideal S8x1 .f32 :=
  blend
    (matmul dot_S8x512_S512x1_S8x1_1_0_0_1_n_n none (truncf .bf16 x bitsLt_bf16_f32)
      (transpose S512x1 [1, 0] (truncf .bf16 W bitsLt_bf16_f32) transposes_S1x512_p1_0_S512x1) (constant S8x1 .f32 0x00000000#32))
    (multiReduction .maximumf [2] S8x1 (mulf (broadcastTo S8x1x512 (shapeCast S1x1x512 W shapeCasts_S1x512_S1x1x512) broadcasts_S1x1x512_S8x1x512)
      (shapeCast S8x1x512 x shapeCasts_S8x512_S8x1x512)) 0xFF800000#32 reduces_S8x1x512_S8x1 (.inl rfl) rfl)
    (broadcastTo S8x1 (shapeCast S1x1 b shapeCasts_S1_S1x1) broadcasts_S1x1_S8x1)

/-- The 256 → 512 spelling is the layer: the product is the row's sum, the reduction the row's maximum, the last term
    the bias entry. -/
theorem spell256_eq (x : FVec Ideal S8x256 .f32) (W : FVec Ideal S512x256 .f32) (b : FVec Ideal S512 .f32) :
    spell256 x W b = layer x W b := by
  funext j
  obtain ⟨p, o, rfl⟩ : ∃ (p : Fin 8) (o : Fin 512), j = ix2 p o := ⟨j 0, j 1, eq_ix2 j⟩
  have hlin : matmul dot_S8x256_S256x512_S8x512_1_0_0_1_n_n none (truncf .bf16 x bitsLt_bf16_f32)
        (transpose S256x512 [1, 0] (truncf .bf16 W bitsLt_bf16_f32) transposes_S512x256_p1_0_S256x512) (constant S8x512 .f32 0x00000000#32) (ix2 p o)
      = ∑ k : Fin 256, x (ix2 p k) * W (ix2 o k) := by
    rw [mm256_apply]
    exact Finset.sum_congr rfl fun k _ => by rw [transpose_ix2_apply]; rfl
  have hmax : multiReduction .maximumf [2] S8x512 (mulf (broadcastTo S8x512x256 (shapeCast S1x512x256 W shapeCasts_S512x256_S1x512x256) broadcasts_S1x512x256_S8x512x256)
        (broadcastTo S8x512x256 (shapeCast S8x1x256 x shapeCasts_S8x256_S8x1x256) broadcasts_S8x1x256_S8x512x256)) 0xFF800000#32 reduces_S8x512x256_S8x512 (.inl rfl) rfl (ix2 p o)
      = (Finset.univ : Finset (Fin 256)).fold max (FloatOps.ofBits (F := Ideal) .f32 0xFF800000#32) fun k => W (ix2 o k) * x (ix2 p k) :=
    (multiReduction_max_last _ _ reduces_S8x512x256_S8x512 (.inl rfl) rfl p o).trans
      (congrArg (fun f : Fin 256 → EReal => (Finset.univ : Finset (Fin 256)).fold max (FloatOps.ofBits (F := Ideal) .f32 0xFF800000#32) f) (funext fun k => by
        rw [mulf_apply, broadcastTo_1ob_nob_apply, shapeCast_ab_1ab_apply, broadcastTo_n1b_nob_apply, shapeCast_ab_a1b_apply]))
  have hbias : broadcastTo S8x512 (shapeCast S1x512 b shapeCasts_S512_S1x512) broadcasts_S1x512_S8x512 (ix2 p o) = b (ix1 o) := by
    rw [broadcastTo_1b_ab_apply, shapeCast_a_1a_apply]
  rw [layer_apply]
  unfold spell256
  rw [blend_apply]
  unfold Tempered.unit
  exact congrArg₂ (· + ·) (congrArg₂ (· + ·) (congrArg (FloatOps.ofBits (F := Ideal) .f32 0x3F4CCCCD#32 * ·) hlin)
    (congrArg (FloatOps.ofBits (F := Ideal) .f32 0x3E4CCCCD#32 * ·) hmax)) hbias

/-- The 512 → 512 spelling is the layer. -/
theorem spell512_eq (x : FVec Ideal S8x512 .f32) (W : FVec Ideal S512x512 .f32) (b : FVec Ideal S512 .f32) :
    spell512 x W b = layer x W b := by
  funext j
  obtain ⟨p, o, rfl⟩ : ∃ (p : Fin 8) (o : Fin 512), j = ix2 p o := ⟨j 0, j 1, eq_ix2 j⟩
  have hlin : matmul dot_S8x512_S512x512_S8x512_1_0_0_1_n_n none (truncf .bf16 x bitsLt_bf16_f32)
        (transpose S512x512 [1, 0] (truncf .bf16 W bitsLt_bf16_f32) transposes_S512x512_p1_0_S512x512) (constant S8x512 .f32 0x00000000#32) (ix2 p o)
      = ∑ k : Fin 512, x (ix2 p k) * W (ix2 o k) := by
    rw [mm512_apply]
    exact Finset.sum_congr rfl fun k _ => by rw [transpose_ix2_apply]; rfl
  have hmax : multiReduction .maximumf [2] S8x512 (mulf (broadcastTo S8x512x512 (shapeCast S1x512x512 W shapeCasts_S512x512_S1x512x512) broadcasts_S1x512x512_S8x512x512)
        (broadcastTo S8x512x512 (shapeCast S8x1x512 x shapeCasts_S8x512_S8x1x512) broadcasts_S8x1x512_S8x512x512)) 0xFF800000#32 reduces_S8x512x512_S8x512 (.inl rfl) rfl (ix2 p o)
      = (Finset.univ : Finset (Fin 512)).fold max (FloatOps.ofBits (F := Ideal) .f32 0xFF800000#32) fun k => W (ix2 o k) * x (ix2 p k) :=
    (multiReduction_max_last _ _ reduces_S8x512x512_S8x512 (.inl rfl) rfl p o).trans
      (congrArg (fun f : Fin 512 → EReal => (Finset.univ : Finset (Fin 512)).fold max (FloatOps.ofBits (F := Ideal) .f32 0xFF800000#32) f) (funext fun k => by
        rw [mulf_apply, broadcastTo_1ob_nob_apply, shapeCast_ab_1ab_apply, broadcastTo_n1b_nob_apply, shapeCast_ab_a1b_apply]))
  have hbias : broadcastTo S8x512 (shapeCast S1x512 b shapeCasts_S512_S1x512) broadcasts_S1x512_S8x512 (ix2 p o) = b (ix1 o) := by
    rw [broadcastTo_1b_ab_apply, shapeCast_a_1a_apply]
  rw [layer_apply]
  unfold spell512
  rw [blend_apply]
  unfold Tempered.unit
  exact congrArg₂ (· + ·) (congrArg₂ (· + ·) (congrArg (FloatOps.ofBits (F := Ideal) .f32 0x3F4CCCCD#32 * ·) hlin)
    (congrArg (FloatOps.ofBits (F := Ideal) .f32 0x3E4CCCCD#32 * ·) hmax)) hbias

/-- The 512 → 1 spelling is the layer. -/
theorem spellOut_eq (x : FVec Ideal S8x512 .f32) (W : FVec Ideal S1x512 .f32) (b : FVec Ideal S1 .f32) :
    spellOut x W b = layer x W b := by
  funext j
  obtain ⟨p, o, rfl⟩ : ∃ (p : Fin 8) (o : Fin 1), j = ix2 p o := ⟨j 0, j 1, eq_ix2 j⟩
  have hlin : matmul dot_S8x512_S512x1_S8x1_1_0_0_1_n_n none (truncf .bf16 x bitsLt_bf16_f32)
        (transpose S512x1 [1, 0] (truncf .bf16 W bitsLt_bf16_f32) transposes_S1x512_p1_0_S512x1) (constant S8x1 .f32 0x00000000#32) (ix2 p o)
      = ∑ k : Fin 512, x (ix2 p k) * W (ix2 o k) := by
    rw [mmOut_apply]
    exact Finset.sum_congr rfl fun k _ => by rw [transpose_ix2_apply]; rfl
  have hmax : multiReduction .maximumf [2] S8x1 (mulf (broadcastTo S8x1x512 (shapeCast S1x1x512 W shapeCasts_S1x512_S1x1x512) broadcasts_S1x1x512_S8x1x512)
        (shapeCast S8x1x512 x shapeCasts_S8x512_S8x1x512)) 0xFF800000#32 reduces_S8x1x512_S8x1 (.inl rfl) rfl (ix2 p o)
      = (Finset.univ : Finset (Fin 512)).fold max (FloatOps.ofBits (F := Ideal) .f32 0xFF800000#32) fun k => W (ix2 o k) * x (ix2 p k) :=
    (multiReduction_max_last _ _ reduces_S8x1x512_S8x1 (.inl rfl) rfl p o).trans
      (congrArg (fun f : Fin 512 → EReal => (Finset.univ : Finset (Fin 512)).fold max (FloatOps.ofBits (F := Ideal) .f32 0xFF800000#32) f) (funext fun k => by
        rw [mulf_apply, broadcastTo_1ob_nob_apply, shapeCast_ab_1ab_apply, shapeCast_ab_a1b_apply]))
  have hbias : broadcastTo S8x1 (shapeCast S1x1 b shapeCasts_S1_S1x1) broadcasts_S1x1_S8x1 (ix2 p o) = b (ix1 o) := by
    rw [broadcastTo_1b_ab_apply, shapeCast_a_1a_apply]
  rw [layer_apply]
  unfold spellOut
  rw [blend_apply]
  unfold Tempered.unit
  exact congrArg₂ (· + ·) (congrArg₂ (· + ·) (congrArg (FloatOps.ofBits (F := Ideal) .f32 0x3F4CCCCD#32 * ·) hlin)
    (congrArg (FloatOps.ofBits (F := Ideal) .f32 0x3E4CCCCD#32 * ·) hmax)) hbias

/-! ## The two payloads -/

/-- The first payload is the first two layers. -/
theorem pay2_eq (v0 : Vec Ideal S8x256 .f32) (v1 : Vec Ideal S512x256 .f32) (v2 : Vec Ideal S512 .f32)
    (v21 : Vec Ideal S512x512 .f32) (v22 : Vec Ideal S512 .f32) :
    k0_pay2 (F := Ideal) v0 v1 v2 v21 v22 = layer (layer v0 v1 v2) v21 v22 :=
  (show k0_pay2 (F := Ideal) v0 v1 v2 v21 v22 = spell512 (spell256 v0 v1 v2) v21 v22 from rfl).trans
    ((congrArg (fun h => spell512 h v21 v22) (spell256_eq v0 v1 v2)).trans (spell512_eq _ v21 v22))

/-- The second payload is the last two layers. -/
theorem pay1_eq (v40 : FVec Ideal S8x512 .f32) (v41 : Vec Ideal S512x512 .f32) (v42 : Vec Ideal S512 .f32)
    (v61 : Vec Ideal S1x512 .f32) (v62 : Vec Ideal S1 .f32) :
    k0_pay1 (F := Ideal) v40 v41 v42 v61 v62 = layer (layer v40 v41 v42) v61 v62 :=
  (show k0_pay1 (F := Ideal) v40 v41 v42 v61 v62 = spellOut (spell512 v40 v41 v42) v61 v62 from rfl).trans
    ((congrArg (fun h => spellOut h v61 v62) (spell512_eq v40 v41 v42)).trans (spellOut_eq _ v61 v62))

end Cert.KernelIdeal.Layers

end
-- ==== Proof.KernelValue.lean ====
/-
  The kernel's result, read off its run.

  The grid has 128 points. Point t stages rows 8t … 8t + 7 of the input and the eight weight and bias arrays whole,
  runs the body, and writes back rows 8t … 8t + 7 of the [1024, 1] output. What the body leaves in the output's
  staging buffer is the network of its nine staged blocks (`out_eq`); the network acts row by row
  (`Tempered.net_rows`), so what point t writes back is block t of ONE function of the argument arrays: the
  network of the whole batch (`flushed_eq`). The 128 blocks tile the output (`covered`), so after the run the output
  array is that function (`final`), and the reshape that follows the region hands it on as a vector of 1024 entries
  (`tail_eq`, `run`).
-/
import proofs.«142806_j40312563041045_1_alg».proof.Proof.Gen.KernelIdeal.Frame
import proofs.«142806_j40312563041045_1_alg».proof.Proof.KernelLayers
import proofs.«142806_j40312563041045_1_alg».proof.Proof.Tempered
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Layers Idealize.ShloMosaic.ValueIdx Cert.Tempered

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## One grid point -/

/-- What the body leaves in the output's staging buffer: the network of the nine staged blocks (every load and the
    one store go through the whole buffer). -/
theorem out_eq (x0 : Vec Ideal S8x256 .f32) (x1 : Vec Ideal S512x256 .f32) (x2 : Vec Ideal S512 .f32)
    (x3 : Vec Ideal S512x512 .f32) (x4 : Vec Ideal S512 .f32) (x5 : Vec Ideal S512x512 .f32) (x6 : Vec Ideal S512 .f32)
    (x7 : Vec Ideal S1x512 .f32) (x8 : Vec Ideal S1 .f32) :
    out0_9 (F := Ideal) x0 x1 x2 x3 x4 x5 x6 x7 x8 = net (n := 8) x0 x1 x2 x3 x4 x5 x6 x7 x8 := by
  unfold out0_9
  rw [View.canon_unit_zero hz2]
  simp only [View.ld_unit_zero (S := S8x256) hz2, View.ld_unit_zero (S := S512x256) hz2, View.ld_unit_zero (S := S512) hz1,
    View.ld_unit_zero (S := S512x512) hz2, View.ld_unit_zero (S := S1x512) hz2, View.ld_unit_zero (S := S1) hz1]
  rw [pay2_eq, pay1_eq]
  rfl

/-- The network of a block of 8 rows, row p, is the network of the whole batch, row 8t + p — when the block's rows are
    those rows of the batch and the weights and biases are the same arrays. -/
theorem net_block (X : S1024x256.Idx → EReal) (x0 : S8x256.Idx → EReal)
    (W1 W1' : S512x256.Idx → EReal) (b1 b1' : S512.Idx → EReal) (W2 W2' : S512x512.Idx → EReal) (b2 b2' : S512.Idx → EReal)
    (W3 W3' : S512x512.Idx → EReal) (b3 b3' : S512.Idx → EReal) (W4 W4' : S1x512.Idx → EReal) (b4 b4' : S1.Idx → EReal)
    (f : Fin 8 → Fin 1024) (h0 : ∀ p k, x0 (ix2 p k) = X (ix2 (f p) k))
    (h1 : W1' = W1) (h2 : b1' = b1) (h3 : W2' = W2) (h4 : b2' = b2) (h5 : W3' = W3) (h6 : b3' = b3) (h7 : W4' = W4) (h8 : b4' = b4)
    (p : Fin 8) (o : Fin 1) :
    net (n := 8) x0 W1' b1' W2' b2' W3' b3' W4' b4' (ix2 p o) = net (n := 1024) X W1 b1 W2 b2 W3 b3 W4 b4 (ix2 (f p) o) := by
  subst h1 h2 h3 h4 h5 h6 h7 h8
  exact net_rows f X x0 _ _ _ _ _ _ _ _ h0 p o

/-! ## The windows' blocks as pieces of the argument arrays -/

/-- The printed index maps, decided over the grid: the input's and the output's block index is the point's number
    on the rows and 0 on the columns. -/
theorem idx_rows : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

/-- The eight resident windows always stage block 0: the whole array. -/
theorem idx_resident : ∀ t : Fin cfg0.N, win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

theorem row_lt (t : Fin cfg0.N) (p : Fin 8) : 8 * t.val + p.val < 1024 := by
  have ht : t.val < cfg0.N := t.isLt
  have hN : cfg0.N = 128 := N_0
  have hp : p.val < 8 := p.isLt
  omega

/-- Row p of the input's block at point t is row 8t + p of the input. -/
theorem xblk_apply (c : Dev nD) (t : Fin cfg0.N) (p : Fin 8) (k : Fin 256) :
    (iblk m c 0 t : Vec Ideal S8x256 .f32) (ix2 p k)
      = (V m c main_arg0 : S1024x256.Idx → EReal) (ix2 ⟨8 * t.val + p.val, row_lt t p⟩ k) := by
  obtain ⟨e0, e1, -, -⟩ := idx_rows t
  unfold iblk
  rw [View.read_apply]
  show V m c main_arg0 _ = V m c main_arg0 _
  congr 1
  funext a
  apply Fin.ext
  match a with
  | ⟨0, _⟩ => show win0_0.index t (0 : Fin 2) * 8 + 1 * p.val = 8 * t.val + p.val; rw [e0]; omega
  | ⟨1, _⟩ => show win0_0.index t (1 : Fin 2) * 256 + 1 * k.val = k.val; rw [e1]; omega

/-- A resident window's block is its whole array. -/
theorem wblk1 (c : Dev nD) (t : Fin cfg0.N) : (iblk m c 1 t : Vec Ideal S512x256 .f32) = V m c main_arg1 := by
  obtain ⟨e0, e1, -⟩ := idx_resident t
  funext y
  unfold iblk
  rw [View.read_apply]
  show V m c main_arg1 _ = V m c main_arg1 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 256 + 1 * (y 1).val = (y 1).val; rw [e1]; omega

theorem wblk2 (c : Dev nD) (t : Fin cfg0.N) : (iblk m c 2 t : Vec Ideal S512 .f32) = V m c main_arg2 := by
  obtain ⟨-, -, e0, -⟩ := idx_resident t
  funext y
  unfold iblk
  rw [View.read_apply]
  show V m c main_arg2 _ = V m c main_arg2 _
  congr 1
  funext a
  apply Fin.ext
  match a with
  | ⟨0, _⟩ => show win0_2.index t (0 : Fin 1) * 512 + 1 * (y 0).val = (y 0).val; rw [e0]; omega

theorem wblk3 (c : Dev nD) (t : Fin cfg0.N) : (iblk m c 3 t : Vec Ideal S512x512 .f32) = V m c main_arg3 := by
  obtain ⟨-, -, -, e0, e1, -⟩ := idx_resident t
  funext y
  unfold iblk
  rw [View.read_apply]
  show V m c main_arg3 _ = V m c main_arg3 _
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega

theorem wblk4 (c : Dev nD) (t : Fin cfg0.N) : (iblk m c 4 t : Vec Ideal S512 .f32) = V m c main_arg4 := by
  obtain ⟨-, -, -, -, -, e0, -⟩ := idx_resident t
  funext y
  unfold iblk
  rw [View.read_apply]
  show V m c main_arg4 _ = V m c main_arg4 _
  congr 1
  funext a
  apply Fin.ext
  match a with
  | ⟨0, _⟩ => show win0_4.index t (0 : Fin 1) * 512 + 1 * (y 0).val = (y 0).val; rw [e0]; omega

theorem wblk5 (c : Dev nD) (t : Fin cfg0.N) : (iblk m c 5 t : Vec Ideal S512x512 .f32) = V m c main_arg5 := by
  obtain ⟨-, -, -, -, -, -, e0, e1, -⟩ := idx_resident t
  funext y
  unfold iblk
  rw [View.read_apply]
  show V m c main_arg5 _ = V m c main_arg5 _
  congr 1
  funext a
  apply Fin.ext
  match a with
  | ⟨0, _⟩ => show win0_5.index t (0 : Fin 2) * 512 + 1 * (y 0).val = (y 0).val; rw [e0]; omega
  | ⟨1, _⟩ => show win0_5.index t (1 : Fin 2) * 512 + 1 * (y 1).val = (y 1).val; rw [e1]; omega

theorem wblk6 (c : Dev nD) (t : Fin cfg0.N) : (iblk m c 6 t : Vec Ideal S512 .f32) = V m c main_arg6 := by
  obtain ⟨-, -, -, -, -, -, -, -, e0, -⟩ := idx_resident t
  funext y
  unfold iblk
  rw [View.read_apply]
  show V m c main_arg6 _ = V m c main_arg6 _
  congr 1
  funext a
  apply Fin.ext
  match a with
  | ⟨0, _⟩ => show win0_6.index t (0 : Fin 1) * 512 + 1 * (y 0).val = (y 0).val; rw [e0]; omega

theorem wblk7 (c : Dev nD) (t : Fin cfg0.N) : (iblk m c 7 t : Vec Ideal S1x512 .f32) = V m c main_arg7 := by
  obtain ⟨-, -, -, -, -, -, -, -, -, e0, e1, -⟩ := idx_resident t
  funext y
  unfold iblk
  rw [View.read_apply]
  show V m c main_arg7 _ = V m c main_arg7 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 512 + 1 * (y 1).val = (y 1).val; rw [e1]; omega

theorem wblk8 (c : Dev nD) (t : Fin cfg0.N) : (iblk m c 8 t : Vec Ideal S1 .f32) = V m c main_arg8 := by
  obtain ⟨-, -, -, -, -, -, -, -, -, -, -, e0⟩ := idx_resident t
  funext y
  unfold iblk
  rw [View.read_apply]
  show V m c main_arg8 _ = V m c main_arg8 _
  congr 1
  funext a
  apply Fin.ext
  match a with
  | ⟨0, _⟩ => show win0_8.index t (0 : Fin 1) * 1 + 1 * (y 0).val = (y 0).val; rw [e0]; omega

/-! ## The output array after the run -/

/-- The network of the whole batch, of the argument arrays as the region finds them. -/
abbrev G (c : Dev nD) : S1024x1.Idx → EReal :=
  net (n := 1024) (V m c main_arg0) (V m c main_arg1) (V m c main_arg2) (V m c main_arg3) (V m c main_arg4) (V m c main_arg5)
    (V m c main_arg6) (V m c main_arg7) (V m c main_arg8)

/-- WHAT POINT t WRITES BACK is block t of `G`. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9, out_eq]
  obtain ⟨-, -, e0, e1⟩ := idx_rows t
  funext y
  obtain ⟨p, o, rfl⟩ : ∃ (p : Fin 8) (o : Fin 1), y = ix2 p o := ⟨y 0, y 1, eq_ix2 y⟩
  show net (n := 8) (iblk m c 0 t) (iblk m c 1 t) (iblk m c 2 t) (iblk m c 3 t) (iblk m c 4 t) (iblk m c 5 t) (iblk m c 6 t)
      (iblk m c 7 t) (iblk m c 8 t) (ix2 p o) = G m c (((cfg0.win 9).blk t).view.emb (ix2 p o))
  have hemb : ((cfg0.win 9).blk t).view.emb (ix2 p o) = (ix2 ⟨8 * t.val + p.val, row_lt t p⟩ o : S1024x1.Idx) := by
    funext a
    apply Fin.ext
    match a with
    | ⟨0, _⟩ => show win0_9.index t (0 : Fin 2) * 8 + 1 * p.val = 8 * t.val + p.val; rw [e0]; omega
    | ⟨1, _⟩ => show win0_9.index t (1 : Fin 2) * 1 + 1 * o.val = o.val; rw [e1]; omega
  rw [hemb]
  exact net_block (V m c main_arg0) (iblk m c 0 t) (V m c main_arg1) (iblk m c 1 t) (V m c main_arg2) (iblk m c 2 t)
    (V m c main_arg3) (iblk m c 3 t) (V m c main_arg4) (iblk m c 4 t) (V m c main_arg5) (iblk m c 5 t)
    (V m c main_arg6) (iblk m c 6 t) (V m c main_arg7) (iblk m c 7 t) (V m c main_arg8) (iblk m c 8 t)
    (fun p => ⟨8 * t.val + p.val, row_lt t p⟩) (fun p k => xblk_apply m c t p k)
    (wblk1 m c t) (wblk2 m c t) (wblk3 m c t) (wblk4 m c t) (wblk5 m c t) (wblk6 m c t) (wblk7 m c t) (wblk8 m c t) p o

/-- An index of the output array is in point t's block iff each coordinate is in the block's range on its axis. -/
theorem mem_blk (t : Fin cfg0.N) (i : S1024x1.Idx) :
    i ∈ ((cfg0.win 9).blk t).view.set ↔ ∀ a : Fin 2, win0_9.index t a * S8x1.size a ≤ (i a).val ∧ (i a).val < win0_9.index t a * S8x1.size a + S8x1.size a := by
  show i ∈ ((View.whole main_v0).slice (win0_9.rect t)).set ↔ _
  rw [View.set_slice_whole, Rect.mem_set_unit]
  exact Iff.rfl

/-- Every row r of the output is in the block of point r / 8. -/
theorem covered (i : S1024x1.Idx) : ∃ t : Fin cfg0.N, (cfg0.win 9).flush t = true ∧ i ∈ ((cfg0.win 9).blk t).view.set := by
  have hi0 : (i 0).val < 1024 := (i 0).isLt
  have hi1 : (i 1).val < 1 := (i 1).isLt
  have hN : cfg0.N = 128 := N_0
  let t : Fin cfg0.N := ⟨(i 0).val / 8, by rw [hN]; omega⟩
  obtain ⟨-, -, e0, e1⟩ := idx_rows t
  have e0' : win0_9.index t (0 : Fin 2) = (i 0).val / 8 := e0
  refine ⟨t, flush0_9 t, ?_⟩
  rw [mem_blk]
  intro a
  match a with
  | ⟨0, _⟩ => show win0_9.index t (0 : Fin 2) * 8 ≤ (i 0).val ∧ (i 0).val < win0_9.index t (0 : Fin 2) * 8 + 8; rw [e0']; omega
  | ⟨1, _⟩ => show win0_9.index t (1 : Fin 2) * 1 ≤ (i 1).val ∧ (i 1).val < win0_9.index t (1 : Fin 2) * 1 + 1; rw [e1]; omega

/-- THE OUTPUT ARRAY after the run is `G`. -/
theorem final (c : Dev nD) : (dats m 0 c).arrAt 9 cfg0.N = G m c :=
  (dats m 0 c).arrAt_eq_of_cover 9 (G m c) (fun t _ => flushed_eq m c t) covered

/-! ## The reshape after the region, and the run -/

/-- The network of the whole batch, of the arguments as launched. -/
theorem G_args (c : Dev nD) : G m c = net (n := 1024) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) := by
  unfold G
  rw [V_main_arg0 m c, V_main_arg1 m c, V_main_arg2 m c, V_main_arg3 m c, V_main_arg4 m c, V_main_arg5 m c, V_main_arg6 m c,
    V_main_arg7 m c, V_main_arg8 m c]

/-- The program's result on core `c`: the network of the arguments, its [1024, 1] array recast as 1024 entries. -/
def out (c : Dev nD) : Buf (Elt Ideal) ((c.tc : Thread nD τ).loc main_v1) :=
  shapeCast S1024 (net (n := 1024) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))) shapeCasts_S1024x1_S1024

/-- The result buffer is no window's array and is not scoped: the region passes it by. -/
theorem mem_v1 : main_v1 ∈ Pipeline.restRefs sig (cfgs 0).spec :=
  Pipeline.mem_restRefs_of main_v1 rfl (fun w => by fin_cases w <;> decide)

/-- What the one line after the region leaves in the result buffer: the output array recast. -/
theorem tail_eq (c : Dev nD) :
    Pipeline.afterTail₀ cfgs (dats m) 0 (V0 m) [hostOps1] c main_v1
      = shapeCast S1024 ((dats m 0 c).arrAt 9 cfg0.N) shapeCasts_S1024x1_S1024 := by
  unfold Pipeline.afterTail₀
  show StableHlo.after hostOps1 _ (Proc.devRef .tc main_v1) = _
  after_results
  funext i
  exact congrArg (fun A : S1024x1.Idx → EReal => shapeCast S1024 A shapeCasts_S1024x1_S1024 i)
    (Pipeline.withArrays_arr (cfgs 0).spec launch0.win.arr_inj c (V0 m c) (fun w => (dats m 0 c).arrAt w (cfgs 0).N) 9)

/-- THE RUN, READ: every weakly fair execution ends with the result buffer at `out` and the nine arguments as launched. -/
theorem run : θ_run defs (onTc (τ := τ) (main (F := Ideal))) ⟨m, fun _ => 0, ρ⟩ fun r => ∀ c : Dev nD,
      r.2.mem ((c.tc : Thread nD τ).loc main_v1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(((h c).2 main_v1 mem_v1).trans (tail_eq m c)).trans (by rw [final, G_args]; rfl),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.Blocks

end
-- ==== Proof.RefLayers.lean ====
/-
  The reference's arithmetic, read on the extended reals.

  The reference computes the same four layers on the whole batch of 1024 rows, each layer spelled with host
  operations: a `dot_general` contracting the second axis of both operands — entry (p, o) is ∑ₖ x p k · W o k —; the
  weights and the rows broadcast into a rank-3 array (p, o, k) ↦ W o k · x p k and its maximum reduced along k from
  -∞; then 0.8 · product + 0.2 · maximum + the bias broadcast over the rows. Stage by stage (the generated reading of
  the run, one operation at a time) each layer's last stage IS `Tempered.layer` of the layer's input stage
  (`stage14_eq`, `stage29_eq`, `stage44_eq`, `stage58_eq`), so the last one is `Tempered.net` of the arguments
  (`stage58_net`). The big intermediate arrays (1024 · 512 · 512 entries) are only ever read at one index.
-/
import proofs.«142806_j40312563041045_1_alg».proof.Proof.Gen.ReferenceIdeal.Read
import proofs.«142806_j40312563041045_1_alg».proof.Proof.Tempered
import proofs.«142806_j40312563041045_1_alg».proof.Proof.LibLayoutReads
import Idealize.ShloMosaic.Lib.ValueIdx
import Idealize.ShloMosaic.Lib.Pipeline.Value
import Idealize.ShloMosaic.PureOps.Ideal.Laws

noncomputable section

namespace Cert.ReferenceIdeal.Layers

open Cert.ReferenceIdeal Cert.ReferenceIdeal.Gen Cert.ReferenceIdeal.Read Idealize.ShloMosaic Idealize.ShloMosaic.ValueIdx
  Cert.Tempered Cert.LayoutReads

/-- The last three operations of every layer at one entry: 0.8 · M + 0.2 · R + B on the extended reals. -/
theorem blend_words (c8 c2 M R B : Ideal .f32) :
    FloatOps.addf (FloatOps.addf (FloatOps.mulf c8 M) (FloatOps.mulf c2 R)) B = c8 * M + c2 * R + B := rfl

/-! ## Layer 1: 256 → 512 -/

/-- The first layer's last stage is the layer of the first three arguments. -/
theorem stage14_eq (x0 : FVec Ideal S1024x256 .f32) (x1 : FVec Ideal S512x256 .f32) (x2 : FVec Ideal S512 .f32) :
    val_main_v14 (F := Ideal) x0 x1 x2 = layer (n := 1024) (I := 256) (O := 512) x0 x1 x2 := by
  funext j
  obtain ⟨p, o, rfl⟩ : ∃ (p : Fin 1024) (o : Fin 512), j = ix2 p o := ⟨j 0, j 1, eq_ix2 j⟩
  have hlin : val_main_v0 (F := Ideal) x0 x1 (ix2 p o) = ∑ k : Fin 256, x0 (ix2 p k) * x1 (ix2 o k) := by
    rw [val_main_v0_apply]
    exact Finset.sum_congr rfl fun k _ => congrArg₂ (· * ·) (congrArg x0 (funext fun a => Fin.ext (by match a with | ⟨0, _⟩ => rfl | ⟨1, _⟩ => rfl))) (congrArg x1 (funext fun a => Fin.ext (by match a with | ⟨0, _⟩ => rfl | ⟨1, _⟩ => rfl)))
  have hmax : val_main_v6 (F := Ideal) x0 x1 (ix2 p o)
      = (Finset.univ : Finset (Fin 256)).fold max (FloatOps.ofBits (F := Ideal) .f32 0xFF800000#32) fun k => x1 (ix2 o k) * x0 (ix2 p k) := by
    unfold val_main_v6
    refine (hostReduce_max_last (val_main_v5 (F := Ideal) x0 x1) (val_main_cst (F := Ideal))
      reducesTo_S1024x512x256_S1024x512_d2 (by decide) h_S_ p o).trans ?_
    rw [val_main_cst_apply]
    refine congrArg (fun f : Fin 256 → EReal => (Finset.univ : Finset (Fin 256)).fold max (FloatOps.ofBits (F := Ideal) .f32 0xFF800000#32) f) (funext fun k => ?_)
    rw [val_main_v5_apply, val_main_v3_apply, val_main_v1_apply, val_main_v4_apply, val_main_v2_apply]
    exact congrArg₂ (· * ·) (congrArg x1 (funext fun a => Fin.ext (by match a with | ⟨0, _⟩ => rfl | ⟨1, _⟩ => rfl))) (congrArg x0 (funext fun a => Fin.ext (by match a with | ⟨0, _⟩ => rfl | ⟨1, _⟩ => rfl)))
  have hbias : val_main_v13 (F := Ideal) x2 (ix2 p o) = x2 (ix1 o) := by
    rw [val_main_v13_apply, val_main_v12_apply]
    exact congrArg x2 (funext fun a => Fin.ext (by match a with | ⟨0, _⟩ => rfl))
  rw [layer_apply, val_main_v14_apply, val_main_v11_apply, val_main_v8_apply, val_main_v10_apply, val_main_v7_apply,
    val_main_v9_apply, val_main_cst_0_apply, val_main_cst_1_apply, blend_words]
  unfold Tempered.unit
  exact congrArg₂ (· + ·) (congrArg₂ (· + ·) (congrArg (FloatOps.ofBits (F := Ideal) .f32 0x3F4CCCCD#32 * ·) hlin)
    (congrArg (FloatOps.ofBits (F := Ideal) .f32 0x3E4CCCCD#32 * ·) hmax)) hbias

/-! ## Layer 2: 512 → 512 -/

/-- The second layer's last stage is the layer of the first layer's. -/
theorem stage29_eq (x0 : FVec Ideal S1024x256 .f32) (x1 : FVec Ideal S512x256 .f32) (x2 : FVec Ideal S512 .f32)
    (x3 : FVec Ideal S512x512 .f32) (x4 : FVec Ideal S512 .f32) :
    val_main_v29 (F := Ideal) x0 x1 x2 x3 x4 = layer (n := 1024) (I := 512) (O := 512) (val_main_v14 (F := Ideal) x0 x1 x2) x3 x4 := by
  funext j
  obtain ⟨p, o, rfl⟩ : ∃ (p : Fin 1024) (o : Fin 512), j = ix2 p o := ⟨j 0, j 1, eq_ix2 j⟩
  have hlin : val_main_v15 (F := Ideal) x0 x1 x2 x3 (ix2 p o)
      = ∑ k : Fin 512, val_main_v14 (F := Ideal) x0 x1 x2 (ix2 p k) * x3 (ix2 o k) := by
    rw [val_main_v15_apply]
    exact Finset.sum_congr rfl fun k _ => congrArg₂ (· * ·) (congrArg (val_main_v14 (F := Ideal) x0 x1 x2) (funext fun a => Fin.ext (by match a with | ⟨0, _⟩ => rfl | ⟨1, _⟩ => rfl))) (congrArg x3 (funext fun a => Fin.ext (by match a with | ⟨0, _⟩ => rfl | ⟨1, _⟩ => rfl)))
  have hmax : val_main_v21 (F := Ideal) x0 x1 x2 x3 (ix2 p o)
      = (Finset.univ : Finset (Fin 512)).fold max (FloatOps.ofBits (F := Ideal) .f32 0xFF800000#32)
          fun k => x3 (ix2 o k) * val_main_v14 (F := Ideal) x0 x1 x2 (ix2 p k) := by
    unfold val_main_v21
    refine (hostReduce_max_last (val_main_v20 (F := Ideal) x0 x1 x2 x3) (val_main_cst_2 (F := Ideal))
      reducesTo_S1024x512x512_S1024x512_d2 (by decide) h_S_ p o).trans ?_
    rw [val_main_cst_2_apply]
    refine congrArg (fun f : Fin 512 → EReal => (Finset.univ : Finset (Fin 512)).fold max (FloatOps.ofBits (F := Ideal) .f32 0xFF800000#32) f) (funext fun k => ?_)
    rw [val_main_v20_apply, val_main_v18_apply, val_main_v16_apply, val_main_v19_apply, val_main_v17_apply]
    exact congrArg₂ (· * ·) (congrArg x3 (funext fun a => Fin.ext (by match a with | ⟨0, _⟩ => rfl | ⟨1, _⟩ => rfl))) (congrArg (val_main_v14 (F := Ideal) x0 x1 x2) (funext fun a => Fin.ext (by match a with | ⟨0, _⟩ => rfl | ⟨1, _⟩ => rfl)))
  have hbias : val_main_v28 (F := Ideal) x4 (ix2 p o) = x4 (ix1 o) := by
    rw [val_main_v28_apply, val_main_v27_apply]
    exact congrArg x4 (funext fun a => Fin.ext (by match a with | ⟨0, _⟩ => rfl))
  rw [layer_apply, val_main_v29_apply, val_main_v26_apply, val_main_v23_apply, val_main_v25_apply, val_main_v22_apply,
    val_main_v24_apply, val_main_cst_3_apply, val_main_cst_4_apply, blend_words]
  unfold Tempered.unit
  exact congrArg₂ (· + ·) (congrArg₂ (· + ·) (congrArg (FloatOps.ofBits (F := Ideal) .f32 0x3F4CCCCD#32 * ·) hlin)
    (congrArg (FloatOps.ofBits (F := Ideal) .f32 0x3E4CCCCD#32 * ·) hmax)) hbias

/-! ## Layer 3: 512 → 512 -/

/-- The third layer's last stage is the layer of the second layer's. -/
theorem stage44_eq (x0 : FVec Ideal S1024x256 .f32) (x1 : FVec Ideal S512x256 .f32) (x2 : FVec Ideal S512 .f32)
    (x3 : FVec Ideal S512x512 .f32) (x4 : FVec Ideal S512 .f32) (x5 : FVec Ideal S512x512 .f32) (x6 : FVec Ideal S512 .f32) :
    val_main_v44 (F := Ideal) x0 x1 x2 x3 x4 x5 x6
      = layer (n := 1024) (I := 512) (O := 512) (val_main_v29 (F := Ideal) x0 x1 x2 x3 x4) x5 x6 := by
  funext j
  obtain ⟨p, o, rfl⟩ : ∃ (p : Fin 1024) (o : Fin 512), j = ix2 p o := ⟨j 0, j 1, eq_ix2 j⟩
  have hlin : val_main_v30 (F := Ideal) x0 x1 x2 x3 x4 x5 (ix2 p o)
      = ∑ k : Fin 512, val_main_v29 (F := Ideal) x0 x1 x2 x3 x4 (ix2 p k) * x5 (ix2 o k) := by
    rw [val_main_v30_apply]
    exact Finset.sum_congr rfl fun k _ => congrArg₂ (· * ·) (congrArg (val_main_v29 (F := Ideal) x0 x1 x2 x3 x4) (funext fun a => Fin.ext (by match a with | ⟨0, _⟩ => rfl | ⟨1, _⟩ => rfl))) (congrArg x5 (funext fun a => Fin.ext (by match a with | ⟨0, _⟩ => rfl | ⟨1, _⟩ => rfl)))
  have hmax : val_main_v36 (F := Ideal) x0 x1 x2 x3 x4 x5 (ix2 p o)
      = (Finset.univ : Finset (Fin 512)).fold max (FloatOps.ofBits (F := Ideal) .f32 0xFF800000#32)
          fun k => x5 (ix2 o k) * val_main_v29 (F := Ideal) x0 x1 x2 x3 x4 (ix2 p k) := by
    unfold val_main_v36
    refine (hostReduce_max_last (val_main_v35 (F := Ideal) x0 x1 x2 x3 x4 x5) (val_main_cst_5 (F := Ideal))
      reducesTo_S1024x512x512_S1024x512_d2 (by decide) h_S_ p o).trans ?_
    rw [val_main_cst_5_apply]
    refine congrArg (fun f : Fin 512 → EReal => (Finset.univ : Finset (Fin 512)).fold max (FloatOps.ofBits (F := Ideal) .f32 0xFF800000#32) f) (funext fun k => ?_)
    rw [val_main_v35_apply, val_main_v33_apply, val_main_v31_apply, val_main_v34_apply, val_main_v32_apply]
    exact congrArg₂ (· * ·) (congrArg x5 (funext fun a => Fin.ext (by match a with | ⟨0, _⟩ => rfl | ⟨1, _⟩ => rfl))) (congrArg (val_main_v29 (F := Ideal) x0 x1 x2 x3 x4) (funext fun a => Fin.ext (by match a with | ⟨0, _⟩ => rfl | ⟨1, _⟩ => rfl)))
  have hbias : val_main_v43 (F := Ideal) x6 (ix2 p o) = x6 (ix1 o) := by
    rw [val_main_v43_apply, val_main_v42_apply]
    exact congrArg x6 (funext fun a => Fin.ext (by match a with | ⟨0, _⟩ => rfl))
  rw [layer_apply, val_main_v44_apply, val_main_v41_apply, val_main_v38_apply, val_main_v40_apply, val_main_v37_apply,
    val_main_v39_apply, val_main_cst_6_apply, val_main_cst_7_apply, blend_words]
  unfold Tempered.unit
  exact congrArg₂ (· + ·) (congrArg₂ (· + ·) (congrArg (FloatOps.ofBits (F := Ideal) .f32 0x3F4CCCCD#32 * ·) hlin)
    (congrArg (FloatOps.ofBits (F := Ideal) .f32 0x3E4CCCCD#32 * ·) hmax)) hbias

/-! ## Layer 4: 512 → 1 -/

/-- The fourth layer's last stage is the layer of the third layer's. -/
theorem stage58_eq (x0 : FVec Ideal S1024x256 .f32) (x1 : FVec Ideal S512x256 .f32) (x2 : FVec Ideal S512 .f32)
    (x3 : FVec Ideal S512x512 .f32) (x4 : FVec Ideal S512 .f32) (x5 : FVec Ideal S512x512 .f32) (x6 : FVec Ideal S512 .f32)
    (x7 : FVec Ideal S1x512 .f32) (x8 : FVec Ideal S1 .f32) :
    val_main_v58 (F := Ideal) x0 x1 x2 x3 x4 x5 x6 x7 x8
      = layer (n := 1024) (I := 512) (O := 1) (val_main_v44 (F := Ideal) x0 x1 x2 x3 x4 x5 x6) x7 x8 := by
  funext j
  obtain ⟨p, o, rfl⟩ : ∃ (p : Fin 1024) (o : Fin 1), j = ix2 p o := ⟨j 0, j 1, eq_ix2 j⟩
  have hlin : val_main_v45 (F := Ideal) x0 x1 x2 x3 x4 x5 x6 x7 (ix2 p o)
      = ∑ k : Fin 512, val_main_v44 (F := Ideal) x0 x1 x2 x3 x4 x5 x6 (ix2 p k) * x7 (ix2 o k) := by
    rw [val_main_v45_apply]
    exact Finset.sum_congr rfl fun k _ => congrArg₂ (· * ·) (congrArg (val_main_v44 (F := Ideal) x0 x1 x2 x3 x4 x5 x6) (funext fun a => Fin.ext (by match a with | ⟨0, _⟩ => rfl | ⟨1, _⟩ => rfl))) (congrArg x7 (funext fun a => Fin.ext (by match a with | ⟨0, _⟩ => rfl | ⟨1, _⟩ => rfl)))
  have hmax : val_main_v50 (F := Ideal) x0 x1 x2 x3 x4 x5 x6 x7 (ix2 p o)
      = (Finset.univ : Finset (Fin 512)).fold max (FloatOps.ofBits (F := Ideal) .f32 0xFF800000#32)
          fun k => x7 (ix2 o k) * val_main_v44 (F := Ideal) x0 x1 x2 x3 x4 x5 x6 (ix2 p k) := by
    unfold val_main_v50
    refine (hostReduce_max_last (val_main_v49 (F := Ideal) x0 x1 x2 x3 x4 x5 x6 x7) (val_main_cst_8 (F := Ideal))
      reducesTo_S1024x1x512_S1024x1_d2 (by decide) h_S_ p o).trans ?_
    rw [val_main_cst_8_apply]
    refine congrArg (fun f : Fin 512 → EReal => (Finset.univ : Finset (Fin 512)).fold max (FloatOps.ofBits (F := Ideal) .f32 0xFF800000#32) f) (funext fun k => ?_)
    rw [val_main_v49_apply, val_main_v48_apply, val_main_v46_apply, val_main_v47_apply]
    exact congrArg₂ (· * ·) (congrArg x7 (funext fun a => Fin.ext (by match a with | ⟨0, _⟩ => exact (by have ho : o.val < 1 := o.isLt; show 0 = o.val; omega) | ⟨1, _⟩ => rfl))) (congrArg (val_main_v44 (F := Ideal) x0 x1 x2 x3 x4 x5 x6) (funext fun a => Fin.ext (by match a with | ⟨0, _⟩ => rfl | ⟨1, _⟩ => rfl)))
  have hbias : val_main_v57 (F := Ideal) x8 (ix2 p o) = x8 (ix1 o) := by
    rw [val_main_v57_apply, val_main_v56_apply]
    exact congrArg x8 (funext fun a => Fin.ext (by match a with | ⟨0, _⟩ => exact (by have ho : o.val < 1 := o.isLt; show 0 = o.val; omega)))
  rw [layer_apply, val_main_v58_apply, val_main_v55_apply, val_main_v52_apply, val_main_v54_apply, val_main_v51_apply,
    val_main_v53_apply, val_main_cst_9_apply, val_main_cst_10_apply, blend_words]
  unfold Tempered.unit
  exact congrArg₂ (· + ·) (congrArg₂ (· + ·) (congrArg (FloatOps.ofBits (F := Ideal) .f32 0x3F4CCCCD#32 * ·) hlin)
    (congrArg (FloatOps.ofBits (F := Ideal) .f32 0x3E4CCCCD#32 * ·) hmax)) hbias

/-! ## The four layers together -/

/-- The last stage before the reshape is the network of the nine arguments. -/
theorem stage58_net (x0 : FVec Ideal S1024x256 .f32) (x1 : FVec Ideal S512x256 .f32) (x2 : FVec Ideal S512 .f32)
    (x3 : FVec Ideal S512x512 .f32) (x4 : FVec Ideal S512 .f32) (x5 : FVec Ideal S512x512 .f32) (x6 : FVec Ideal S512 .f32)
    (x7 : FVec Ideal S1x512 .f32) (x8 : FVec Ideal S1 .f32) :
    val_main_v58 (F := Ideal) x0 x1 x2 x3 x4 x5 x6 x7 x8 = net (n := 1024) x0 x1 x2 x3 x4 x5 x6 x7 x8 := by
  rw [stage58_eq, stage44_eq, stage29_eq, stage14_eq]
  rfl

end Cert.ReferenceIdeal.Layers

end
-- ==== Proof.lean ====
/-
  The certificate of the four-layer max-tempered network: the Pallas kernel against its jnp reference.

  A layer sends a row x, a weight matrix W and a bias b to the row with entries
  0.8 · ∑ₖ x k · W o k + 0.2 · maxₖ (W o k · x k) + b o (Proof/Tempered.lean). The kernel runs the four layers on
  blocks of 8 rows, the 128 blocks tiling the batch; the reference runs them on the whole batch of 1024 rows. On the
  extended reals both programs spell every layer with the same operations up to layout — the kernel's bf16 roundings are
  the identity there, its transposed matrix product and the host's `dot_general` are the same sum, its
  `multi_reduction <maximumf>` and the host's `reduce` the same fold of `max` from -∞, and 0.8, 0.2, -∞ are the same
  three f32 words on both sides — so no law of arithmetic is needed and the finiteness of the inputs is never used:
  each program's result is the network of the arguments, recast from [1024, 1] to [1024] (Proof/KernelLayers.lean and
  Proof/KernelValue.lean for the kernel, Proof/RefLayers.lean for the reference), and a layer acts row by row, which
  is what lets the kernel's blocks be read as rows of the whole batch (`Tempered.net_rows`).

  The frames of the two kernel programs are the generated ones; the reference's frame is its generated run with the
  result dropped; the ideal pass rewrote nothing, so `preserves` asks nothing.
-/
import proofs.«142806_j40312563041045_1_alg».proof.Defs
import proofs.«142806_j40312563041045_1_alg».proof.Proof.Gen.Kernel
import proofs.«142806_j40312563041045_1_alg».proof.Proof.Gen.Kernel.Skeleton
import proofs.«142806_j40312563041045_1_alg».proof.Proof.Gen.Kernel.Launch
import proofs.«142806_j40312563041045_1_alg».proof.Proof.Gen.Kernel.Points
import proofs.«142806_j40312563041045_1_alg».proof.Proof.Gen.Kernel.Frame
import proofs.«142806_j40312563041045_1_alg».proof.Proof.Gen.KernelIdeal
import proofs.«142806_j40312563041045_1_alg».proof.Proof.Gen.KernelIdeal.Skeleton
import proofs.«142806_j40312563041045_1_alg».proof.Proof.Gen.KernelIdeal.Launch
import proofs.«142806_j40312563041045_1_alg».proof.Proof.Gen.KernelIdeal.Points
import proofs.«142806_j40312563041045_1_alg».proof.Proof.Gen.KernelIdeal.Frame
import proofs.«142806_j40312563041045_1_alg».proof.Proof.Gen.ReferenceIdeal
import proofs.«142806_j40312563041045_1_alg».proof.Proof.Gen.ReferenceIdeal.Run
import proofs.«142806_j40312563041045_1_alg».proof.Proof.Gen.ReferenceIdeal.Read
import proofs.«142806_j40312563041045_1_alg».proof.Proof.Gen.Pre_finite_inputs
import proofs.«142806_j40312563041045_1_alg».proof.Proof.Tempered
import proofs.«142806_j40312563041045_1_alg».proof.Proof.KernelValue
import proofs.«142806_j40312563041045_1_alg».proof.Proof.RefLayers
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the network of the arguments, recast as a
    vector of 1024 entries: the kernel's result array block by block (Proof/KernelValue.lean), the reference's last
    stage layer by layer (Proof/RefLayers.lean), and the same reshape after both. -/
theorem algebraic : Cert.algebraic_KernelIdeal_ReferenceIdeal := by
  intro m ρ m' ρ' _ hagree
  refine ⟨fun c => Cert.KernelIdeal.Blocks.out m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v59_eq, h0, h1, h2, h3, h4, h5, h6, h7, h8]
  unfold Cert.ReferenceIdeal.Read.val_main_v59
  rw [Cert.ReferenceIdeal.Layers.stage58_net]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
